-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg1 : IVec S2x640000 32) (main_v48 : IVec S_ 1) (main_v50 : IVec S2x640000 1) : IVec S_ 1 :=
  let main_c_19 : IVec S_ 32 := constantI S_ 32 50000#32
  let main_v51 : IVec S2x640000 32 := broadcastInDim S2x640000 ![] bcast_S_S2x640000 main_c_19
  let main_v52 : IVec S2x640000 1 := cmpi .slt main_arg1 main_v51
  let main_v53 : IVec S2x640000 1 := andi main_v50 main_v52
  let main_c_20 : IVec S_ 1 := constantI S_ 1 1#1
  let main_v54 : IVec S_ 1 := (fun x v => Host.reduce IntOp.andi x v reducesTo_S2x640000_S_d0_1 h_S_) main_v53 main_c_20
  let main_v55 : IVec S_ 1 := andi main_v48 main_v54
  main_v55

def fn_part2 {F : FTy → Type} [FloatOps F] (main_arg1 : IVec S2x640000 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S2x640000 32 := broadcastInDim S2x640000 ![] bcast_S_S2x640000 main_c_18
  let main_v50 : IVec S2x640000 1 := cmpi .sge main_arg1 main_v49
  fn_part3 (F := F) main_arg1 main_v48 main_v50

def fn_part1 {F : FTy → Type} [FloatOps F] (main_arg1 : IVec S2x640000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x640000 32) (main_arg2 : FVec F S640000x128 .f32) (main_arg3 : FVec F S384x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S2000x128 : Shape := ⟨2, ![2000, 128]⟩
abbrev S1x128 : Shape := ⟨2, ![1, 128]⟩
abbrev S50000x1 : Shape := ⟨2, ![50000, 1]⟩

abbrev nBuf : Space → Nat
  | .hbm => 83
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S1, .i32⟩
  | .hbm, ⟨24, _⟩ => ⟨S_, .i32⟩
  | .hbm, ⟨25, _⟩ => ⟨S640000x1, .i32⟩
  | .hbm, ⟨26, _⟩ => ⟨S640000x1, .i1⟩
  | .hbm, ⟨27, _⟩ => ⟨S1x1, .i32⟩
  | .hbm, ⟨28, _⟩ => ⟨S640000x1, .i32⟩
  | .hbm, ⟨29, _⟩ => ⟨S640000x1, .i1⟩
  | .hbm, ⟨30, _⟩ => ⟨S640000x1, .i1⟩
  | .hbm, ⟨31, _⟩ => ⟨S_, .i1⟩
  | .hbm, ⟨32, _⟩ => ⟨S640000, .i1⟩
  | .hbm, ⟨33, _⟩ => ⟨S640000x128, .f32⟩
  | .hbm, ⟨34, _⟩ => ⟨S640000x128, .i1⟩
  | .hbm, ⟨35, _⟩ => ⟨S_, .f32⟩
  | .hbm, ⟨36, _⟩ => ⟨S640000x128, .f32⟩
  | .hbm, ⟨37, _⟩ => ⟨S640000x128, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S1, .i32⟩
  | .hbm, ⟨47, _⟩ => ⟨S_, .i32⟩
  | .hbm, ⟨48, _⟩ => ⟨S640000x1, .i32⟩
  | .hbm, ⟨49, _⟩ => ⟨S640000x1, .i1⟩
  | .hbm, ⟨50, _⟩ => ⟨S1x1, .i32⟩
  | .hbm, ⟨51, _⟩ => ⟨S640000x1, .i32⟩
  | .hbm, ⟨52, _⟩ => ⟨S640000x1, .i1⟩
  | .hbm, ⟨53, _⟩ => ⟨S640000x1, .i1⟩
  | .hbm, ⟨54, _⟩ => ⟨S_, .i1⟩
  | .hbm, ⟨55, _⟩ => ⟨S640000, .i1⟩
  | .hbm, ⟨56, _⟩ => ⟨S640000x128, .f32⟩
  | .hbm, ⟨57, _⟩ => ⟨S640000x128, .i1⟩
  | .hbm, ⟨58, _⟩ => ⟨S_, .f32⟩
  | .hbm, ⟨59, _⟩ => ⟨S640000x128, .f32⟩
  | .hbm, ⟨60, _⟩ => ⟨S640000x128, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S640000x128, .f32⟩
  | .hbm, ⟨65, _⟩ => ⟨S_, .f32⟩
  | .hbm, ⟨66, _⟩ => ⟨S50000x128, .f32⟩
  | .hbm, ⟨67, _⟩ => ⟨S640000x1, .i32⟩
  | .hbm, ⟨68, _⟩ => ⟨S50000x128, .f32⟩
  | .hbm, ⟨69, _⟩ => ⟨S_, .f32⟩
  | .hbm, ⟨70, _⟩ => ⟨S640000x1, .f32⟩
  | .hbm, ⟨71, _⟩ => ⟨S_, .f32⟩
  | .hbm, ⟨72, _⟩ => ⟨S50000x1, .f32⟩
  | .hbm, ⟨73, _⟩ => ⟨S640000x1, .i32⟩
  | .hbm, ⟨74, _⟩ => ⟨S50000x1, .f32⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S128x128, .f32⟩
  | .hbm, ⟨81, _⟩ => ⟨S128x128, .f32⟩
  | .hbm, ⟨82, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S2000x128, .f32⟩
  | .local _ .vmem, ⟨24, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_cst : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_cst_0 : Ref sig .tc := ⟨.hbm, 69, rfl⟩
abbrev main_v13 : Ref sig .tc := ⟨.hbm, 70, rfl⟩
abbrev main_cst_1 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_cst_2 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  gather_S50000x128_S640000x1_S640000x128_1_0_n_n_0_1_1128_wf : GatherDims.WF S50000x128 S640000x1 S640000x128 [1] [0] [] [0] [] 1 ![1, 128]
  dot_S2000x128_S128x128_S2000x128_1_0_0_1_n_n_wf : DotDims.WF S2000x128 S128x128 S2000x128 [1] [0] [0] [1] [] []
  scatter_S50000x128_S640000x1_S640000x128_1_0_0_1_wf : ScatterDims.WF S50000x128 S640000x1 S640000x128 [1] [0] [0] 1
  scatter_S50000x1_S640000x1_S640000x1_1_0_0_1_wf : ScatterDims.WF S50000x1 S640000x1 S640000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S640000x128.size a
  hwx0_0 : ∀ i : grid0.Coords, EltTy.bits .f32 = 32 ∨ (Rect.block (s := S640000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S640000x128.size a
  hwx0_1 : ∀ i : grid0.Coords, EltTy.bits .f32 = 32 ∨ (Rect.block (s := S640000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S640000x128.size a
  hwx0_2 : ∀ i : grid0.Coords, EltTy.bits .f32 = 32 ∨ (Rect.block (s := S640000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S640000x128.size a
  hwx0_9 : ∀ i : grid0.Coords, EltTy.bits .f32 = 32 ∨ (Rect.block (s := S640000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S50000x1 : Shape := ⟨2, ![50000, 1]⟩
abbrev S50000x256 : Shape := ⟨2, ![50000, 256]⟩

abbrev nBuf : Space → Nat
  | .hbm => 72
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x384, .f32⟩
  | .hbm, ⟨34, _⟩ => ⟨S640000x128, .f32⟩
  | .hbm, ⟨35, _⟩ => ⟨S1x128, .f32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S1x128, .f32⟩
  | .hbm, ⟨43, _⟩ => ⟨S640000x128, .f32⟩
  | .hbm, ⟨44, _⟩ => ⟨S640000x128, .f32⟩
  | .hbm, ⟨45, _⟩ => ⟨S_, .f32⟩
  | .hbm, ⟨46, _⟩ => ⟨S50000x128, .f32⟩
  | .hbm, ⟨47, _⟩ => ⟨S640000x1, .i32⟩
  | .hbm, ⟨48, _⟩ => ⟨S50000x128, .f32⟩
  | .hbm, ⟨49, _⟩ => ⟨S_, .f32⟩
  | .hbm, ⟨50, _⟩ => ⟨S640000x1, .f32⟩
  | .hbm, ⟨51, _⟩ => ⟨S_, .f32⟩
  | .hbm, ⟨52, _⟩ => ⟨S50000x1, .f32⟩
  | .hbm, ⟨53, _⟩ => ⟨S640000x1, .i32⟩
  | .hbm, ⟨54, _⟩ => ⟨S50000x1, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x256, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_cst : Ref sig .tc := ⟨.hbm, 65, rfl⟩
abbrev main_call1_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  bcast_S_S640000x1 : S_.BroadcastsInDim S640000x1 (![] : Fin 0 → Fin S640000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  scatter_S50000x1_S640000x1_S640000x1_1_0_0_1_wf : ScatterDims.WF S50000x1 S640000x1 S640000x1 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The two-layer perceptron both programs compute, as plain sums over the extended reals.
  A hidden unit is a sum of products of an input row with a column of the first weight matrix, plus a bias; the
  row is the concatenation of three (edge model) or two (node model) rows of width 128, so the sum over the
  joined width is the sum of the parts' sums — addition on the extended reals is commutative and associative, and
  nothing else is used: no finiteness. The output unit rectifies the hidden units (maximum with the zero word),
  multiplies by the second weight matrix and adds its bias.
-/
import Idealize.ShloMosaic.PureOps.Ideal
import Idealize.ShloMosaic.Lib.ValueIdx
import Mathlib.Algebra.BigOperators.Fin

noncomputable section

namespace Cert.Mlp

open Idealize.ShloMosaic

/-- The f32 zero word at the ideal instance: the floor of the rectifier (the same word in both programs). -/
abbrev zf : EReal := Ideal.ofBits .f32 0x00000000#32

/-- Hidden unit `h` of the edge model: three rows of width 128 against the three row-blocks of the first weight
    matrix, summed in the kernel's grouping, plus the bias. -/
def hid3 (a b c : Fin 128 → EReal) (A B C : Fin 128 → Fin 128 → EReal) (b1 : Fin 128 → EReal) (h : Fin 128) : EReal :=
  ((∑ k : Fin 128, a k * A k h) + (∑ k : Fin 128, b k * B k h)) + (∑ k : Fin 128, c k * C k h) + b1 h

/-- Hidden unit `h` of the node model: two rows of width 128 against the two row-blocks of its first weight matrix. -/
def hid2 (a b : Fin 128 → EReal) (A B : Fin 128 → Fin 128 → EReal) (b1 : Fin 128 → EReal) (h : Fin 128) : EReal :=
  ((∑ k : Fin 128, a k * A k h) + (∑ k : Fin 128, b k * B k h)) + b1 h

/-- Output unit `q`: the rectified hidden units against column `q` of the second weight matrix, plus the bias. -/
def outL (hid : Fin 128 → EReal) (W2 : Fin 128 → Fin 128 → EReal) (b2 : Fin 128 → EReal) (q : Fin 128) : EReal :=
  (∑ h : Fin 128, max (hid h) zf * W2 h q) + b2 q

/-- A sum over 256 = 128 + 128 terms is the sum of its two halves' sums. -/
theorem sum256 {M : Type} [AddCommMonoid M] (f : Fin 256 → M) :
    ∑ k : Fin 256, f k
      = (∑ k : Fin 128, f ⟨k.val, by omega⟩) + ∑ k : Fin 128, f ⟨128 + k.val, by omega⟩ := by
  rw [show (∑ k : Fin 256, f k) = ∑ k : Fin (128 + 128), f k from rfl, Fin.sum_univ_add]
  rfl

/-- A sum over 384 = 128 + 128 + 128 terms is the sum of its three thirds' sums, the first two grouped together. -/
theorem sum384 {M : Type} [AddCommMonoid M] (f : Fin 384 → M) :
    ∑ k : Fin 384, f k
      = ((∑ k : Fin 128, f ⟨k.val, by omega⟩) + ∑ k : Fin 128, f ⟨128 + k.val, by omega⟩)
        + ∑ k : Fin 128, f ⟨256 + k.val, by omega⟩ := by
  rw [show (∑ k : Fin 384, f k) = ∑ k : Fin (256 + 128), f k from rfl, Fin.sum_univ_add,
    sum256 (fun k : Fin 256 => f (Fin.castAdd 128 k))]
  rfl

end Cert.Mlp

end
-- ==== Proof.KBody.lean ====
/-
  The two kernel bodies' arithmetic, read at one element of the output block, at the ideal instance.
  Each body loads whole blocks, rounds them to bf16 (the identity on extended reals), multiplies on the matrix unit
  into a zero accumulator (a plain sum of products), adds the partial products and the bias row, rectifies,
  multiplies by the second weight matrix and adds its bias row: element (p, q) of the block is the perceptron's
  output unit q on row p of the input blocks.
-/
import proofs.«417618_j1589137899997_1_alg».proof.Proof.Gen.KernelIdeal.Skeleton
import proofs.«417618_j1589137899997_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-! ## The matrix product into a zero accumulator, read at an element

The four coordinate readings of the operand indices: the left operand's row is the result's row, its column the
contraction coordinate; the right operand's row is the contraction coordinate, its column the result's column. -/

private theorem lhs_mm_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
private theorem lhs_mm_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
private theorem rhs_mm_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
private theorem rhs_mm_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Element (p, q) of a [2000,128] × [128,128] product accumulated into the zero block: the sum over the 128
    contraction coordinates of left (p, k) times right (k, q). -/
private theorem matmul0_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  show FloatOps.matmul dot_S2000x128_S128x128_S2000x128_1_0_0_1_n_n none l r (constant S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The bias row laid along every row of the block -/

/-- A vector of 128 entries cast to one row and broadcast down the 2000 rows reads, at (p, q), its entry q. -/
private theorem bias_apply (b : Vec Ideal S128 .f32) (p : Fin 2000) (q : Fin 128) :
    broadcastTo S2000x128 (shapeCast S1x128 b shapeCasts_S128_S1x128) broadcasts_S1x128_S2000x128 (ix2 p q)
      = b (ix1 q) := by
  refine (broadcastTo_apply _ broadcasts_S1x128_S2000x128 (ix2 p q) (ix2 (0 : Fin 1) q) ?_).trans ?_
  · intro a
    match a with
    | ⟨0, _⟩ => rfl
    | ⟨1, _⟩ =>
      show q.val = if (128 : Nat) = 1 then 0 else q.val
      rw [if_neg (by decide)]
  · exact shapeCast_apply b shapeCasts_S128_S1x128 (ix2 (0 : Fin 1) q) (ix1 q) (by
      rw [Shape.rowMajor_val_two, Shape.rowMajor_val_one]
      show q.val = 0 * 128 + q.val
      omega)

/-! ## The two bodies -/

/-- The edge body's stored value at row `p`, column `q` of the block. -/
theorem pay0_apply (v0 v3 v6 : Vec Ideal S2000x128 .f32) (v8 v11 v14 : Vec Ideal S128x128 .f32) (v22 : Vec Ideal S128 .f32)
    (v29 : Vec Ideal S128x128 .f32) (v32 : Vec Ideal S128 .f32) (p : Fin 2000) (q : Fin 128) :
    k0_pay1 (F := Ideal) v0 v3 v6 v8 v11 v14 v22 v29 v32 (ix2 p q)
      = Cert.Mlp.outL
          (Cert.Mlp.hid3 (fun k => v0 (ix2 p k)) (fun k => v3 (ix2 p k)) (fun k => v6 (ix2 p k))
            (fun k h => v8 (ix2 k h)) (fun k h => v11 (ix2 k h)) (fun k h => v14 (ix2 k h)) (fun h => v22 (ix1 h)))
          (fun h j => v29 (ix2 h j)) (fun j => v32 (ix1 j)) q := by
  unfold k0_pay1
  simp only [shapeCast_self]
  rw [addf_apply, matmul0_apply, bias_apply]
  unfold Cert.Mlp.outL
  refine congrArg (· + v32 (ix1 q)) (Finset.sum_congr rfl fun h _ => ?_)
  rw [truncf_apply, maximumf_apply, addf_apply, addf_apply, addf_apply, matmul0_apply, matmul0_apply, matmul0_apply,
    bias_apply]
  rfl

/-- The node body's stored value at row `p`, column `q` of the block. -/
theorem pay1_apply (v0 v2 : Vec Ideal S2000x128 .f32) (v5 v8 : Vec Ideal S128x128 .f32) (v14 : Vec Ideal S128 .f32)
    (v21 : Vec Ideal S128x128 .f32) (v24 : Vec Ideal S128 .f32) (p : Fin 2000) (q : Fin 128) :
    k1_pay1 (F := Ideal) v0 v2 v5 v8 v14 v21 v24 (ix2 p q)
      = Cert.Mlp.outL
          (Cert.Mlp.hid2 (fun k => v0 (ix2 p k)) (fun k => v2 (ix2 p k))
            (fun k h => v5 (ix2 k h)) (fun k h => v8 (ix2 k h)) (fun h => v14 (ix1 h)))
          (fun h j => v21 (ix2 h j)) (fun j => v24 (ix1 j)) q := by
  unfold k1_pay1
  simp only [shapeCast_self]
  rw [addf_apply, matmul0_apply, bias_apply]
  unfold Cert.Mlp.outL
  refine congrArg (· + v24 (ix1 q)) (Finset.sum_congr rfl fun h _ => ?_)
  rw [truncf_apply, maximumf_apply, addf_apply, addf_apply, matmul0_apply, matmul0_apply, bias_apply]
  rfl

end Cert.KernelIdeal.Body

end
-- ==== Proof.KEdge.lean ====
/-
  Region 0 (the edge model) as one whole-array function.
  Grid point t stores, into rows 2000 t … 2000 t + 1999 of the edge result, the perceptron's output on the same rows
  of its three row inputs (the weight and bias windows are whole arrays at every point). So every write-back is a
  block of ONE function of the region's input arrays, the 320 blocks tile the 640000 rows, and the result array ends
  holding that function: row e, column j is output unit j on row e of the inputs.
-/
import proofs.«417618_j1589137899997_1_alg».proof.Proof.Gen.KernelIdeal.Frame
import proofs.«417618_j1589137899997_1_alg».proof.Proof.KBody
import proofs.«417618_j1589137899997_1_alg».proof.Proof.Spec
import Idealize.ShloMosaic.Lib.Pipeline.Value
import Idealize.ShloMosaic.Lib.ValueIdx

set_option maxRecDepth 16384

noncomputable section

namespace Cert.KernelIdeal.Edge

open Cert.KernelIdeal Cert.KernelIdeal.Gen
open Idealize.ShloMosaic Idealize.ShloMosaic.TcCoe Idealize.SL.Sem Idealize.ShloMosaic.ValueIdx
open Idealize.ShloMosaic.Pipeline (Dat)

/-- The edge model on whole arrays: element (e, j) is output unit j on row e of the three row inputs. -/
def edgeArr (X0 X1 X2 : FVec Ideal S640000x128 .f32) (W3 W4 W5 : FVec Ideal S128x128 .f32) (b6 : FVec Ideal S128 .f32)
    (W7 : FVec Ideal S128x128 .f32) (b8 : FVec Ideal S128 .f32) : FVec Ideal S640000x128 .f32 :=
  fun i => Cert.Mlp.outL
    (Cert.Mlp.hid3 (fun k => X0 (ix2 (⟨(i 0).val, (i 0).isLt⟩ : Fin 640000) k)) (fun k => X1 (ix2 (⟨(i 0).val, (i 0).isLt⟩ : Fin 640000) k))
      (fun k => X2 (ix2 (⟨(i 0).val, (i 0).isLt⟩ : Fin 640000) k))
      (fun k h => W3 (ix2 k h)) (fun k h => W4 (ix2 k h)) (fun k h => W5 (ix2 k h)) (fun h => b6 (ix1 h)))
    (fun h q => W7 (ix2 h q)) (fun q => b8 (ix1 q)) (⟨(i 1).val, (i 1).isLt⟩ : Fin 128)

theorem hz2 : (![0, 0] : Fin 2 → Nat) = fun _ => 0 := funext fun a => by fin_cases a <;> rfl
theorem hz1 : (![0] : Fin 1 → Nat) = fun _ => 0 := funext fun a => by fin_cases a; rfl

/-- One block: if the three row blocks are rows 2000 t … of the arrays, the body's stored block is the same rows of
    the edge model on the arrays. -/
theorem block_eq (x0 x1 x2 : Vec Ideal S2000x128 .f32) (x3 x4 x5 : Vec Ideal S128x128 .f32) (x6 : Vec Ideal S128 .f32)
    (x7 : Vec Ideal S128x128 .f32) (x8 : Vec Ideal S128 .f32) (X0 X1 X2 : FVec Ideal S640000x128 .f32) (t : Nat) (ht : t < 320)
    (h0 : ∀ (p : Fin 2000) (k : Fin 128), x0 (ix2 p k) = X0 (ix2 (⟨2000 * t + p.val, by omega⟩ : Fin 640000) k))
    (h1 : ∀ (p : Fin 2000) (k : Fin 128), x1 (ix2 p k) = X1 (ix2 (⟨2000 * t + p.val, by omega⟩ : Fin 640000) k))
    (h2 : ∀ (p : Fin 2000) (k : Fin 128), x2 (ix2 p k) = X2 (ix2 (⟨2000 * t + p.val, by omega⟩ : Fin 640000) k))
    (p : Fin 2000) (q : Fin 128) :
    k0_pay1 (F := Ideal) x0 x1 x2 x3 x4 x5 x6 x7 x8 (ix2 p q)
      = edgeArr X0 X1 X2 x3 x4 x5 x6 x7 x8 (ix2 (⟨2000 * t + p.val, by omega⟩ : Fin 640000) q) := by
  rw [Cert.KernelIdeal.Body.pay0_apply]
  unfold edgeArr
  simp only [h0, h1, h2]

section Region
variable (V : (c : Dev nD) → (b : Ref sig .tc) → Buf (Elt Ideal) ((c : Thread nD τ).loc b))

/-- The printed index maps over the grid: the three row windows and the output move with the point, row block t;
    the weight and bias windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- Row window 0's block at point t is rows 2000 t … 2000 t + 1999 of its array. -/
theorem iblk_rows0 (c : Dev nD) (t : Fin cfg0.N) (p : Fin 2000) (k : Fin 128) (i : S640000x128.Idx)
    (hi0 : (i 0).val = 2000 * t.val + p.val) (hi1 : (i 1).val = k.val) :
    (iblk0 V c 0 t : Vec Ideal S2000x128 .f32) (ix2 p k) = (V c main_v4 : FVec Ideal S640000x128 .f32) i := by
  unfold iblk0
  rw [View.read_apply]
  show V c main_v4 _ = V c main_v4 i
  congr 1
  funext a
  apply Fin.ext
  have hf := idx_facts t
  match a with
  | ⟨0, _⟩ => show win0_0.index t (0 : Fin 2) * 2000 + 1 * p.val = (i 0).val; omega
  | ⟨1, _⟩ => show win0_0.index t (1 : Fin 2) * 128 + 1 * k.val = (i 1).val; omega

/-- Row window 1's block at point t is rows 2000 t … 2000 t + 1999 of its array. -/
theorem iblk_rows1 (c : Dev nD) (t : Fin cfg0.N) (p : Fin 2000) (k : Fin 128) (i : S640000x128.Idx)
    (hi0 : (i 0).val = 2000 * t.val + p.val) (hi1 : (i 1).val = k.val) :
    (iblk0 V c 1 t : Vec Ideal S2000x128 .f32) (ix2 p k) = (V c main_v5 : FVec Ideal S640000x128 .f32) i := by
  unfold iblk0
  rw [View.read_apply]
  show V c main_v5 _ = V c main_v5 i
  congr 1
  funext a
  apply Fin.ext
  have hf := idx_facts t
  match a with
  | ⟨0, _⟩ => show win0_1.index t (0 : Fin 2) * 2000 + 1 * p.val = (i 0).val; omega
  | ⟨1, _⟩ => show win0_1.index t (1 : Fin 2) * 128 + 1 * k.val = (i 1).val; omega

/-- Row window 2's block at point t is rows 2000 t … 2000 t + 1999 of its array. -/
theorem iblk_rows2 (c : Dev nD) (t : Fin cfg0.N) (p : Fin 2000) (k : Fin 128) (i : S640000x128.Idx)
    (hi0 : (i 0).val = 2000 * t.val + p.val) (hi1 : (i 1).val = k.val) :
    (iblk0 V c 2 t : Vec Ideal S2000x128 .f32) (ix2 p k) = (V c main_arg2 : FVec Ideal S640000x128 .f32) i := by
  unfold iblk0
  rw [View.read_apply]
  show V c main_arg2 _ = V c main_arg2 i
  congr 1
  funext a
  apply Fin.ext
  have hf := idx_facts t
  match a with
  | ⟨0, _⟩ => show win0_2.index t (0 : Fin 2) * 2000 + 1 * p.val = (i 0).val; omega
  | ⟨1, _⟩ => show win0_2.index t (1 : Fin 2) * 128 + 1 * k.val = (i 1).val; omega

/-! The weight and bias windows hold their whole arrays at every point. -/

theorem iblk_whole3 (c : Dev nD) (t : Fin cfg0.N) : (iblk0 V c 3 t : Vec Ideal S128x128 .f32) = V c main_v6 := by
  funext y
  unfold iblk0
  rw [View.read_apply]
  show V c main_v6 _ = V c main_v6 y
  congr 1
  funext a
  apply Fin.ext
  have hf := idx_facts t
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem iblk_whole4 (c : Dev nD) (t : Fin cfg0.N) : (iblk0 V c 4 t : Vec Ideal S128x128 .f32) = V c main_v7 := by
  funext y
  unfold iblk0
  rw [View.read_apply]
  show V c main_v7 _ = V c main_v7 y
  congr 1
  funext a
  apply Fin.ext
  have hf := idx_facts t
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem iblk_whole5 (c : Dev nD) (t : Fin cfg0.N) : (iblk0 V c 5 t : Vec Ideal S128x128 .f32) = V c main_v8 := by
  funext y
  unfold iblk0
  rw [View.read_apply]
  show V c main_v8 _ = V c main_v8 y
  congr 1
  funext a
  apply Fin.ext
  have hf := idx_facts t
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem iblk_whole6 (c : Dev nD) (t : Fin cfg0.N) : (iblk0 V c 6 t : Vec Ideal S128 .f32) = V c main_arg4 := by
  funext y
  unfold iblk0
  rw [View.read_apply]
  show V c main_arg4 _ = V c main_arg4 y
  congr 1
  funext a
  apply Fin.ext
  have hf := idx_facts t
  match a with
  | ⟨0, _⟩ => show win0_6.index t (0 : Fin 1) * 128 + 1 * (y 0).val = (y 0).val; omega

theorem iblk_whole7 (c : Dev nD) (t : Fin cfg0.N) : (iblk0 V c 7 t : Vec Ideal S128x128 .f32) = V c main_arg5 := by
  funext y
  unfold iblk0
  rw [View.read_apply]
  show V c main_arg5 _ = V c main_arg5 y
  congr 1
  funext a
  apply Fin.ext
  have hf := idx_facts t
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem iblk_whole8 (c : Dev nD) (t : Fin cfg0.N) : (iblk0 V c 8 t : Vec Ideal S128 .f32) = V c main_arg6 := by
  funext y
  unfold iblk0
  rw [View.read_apply]
  show V c main_arg6 _ = V c main_arg6 y
  congr 1
  funext a
  apply Fin.ext
  have hf := idx_facts t
  match a with
  | ⟨0, _⟩ => show win0_8.index t (0 : Fin 1) * 128 + 1 * (y 0).val = (y 0).val; omega

/-- The region's result as a function of the arrays the region finds. -/
abbrev result (c : Dev nD) : FVec Ideal S640000x128 .f32 :=
  edgeArr (V c main_v4) (V c main_v5) (V c main_arg2) (V c main_v6) (V c main_v7) (V c main_v8) (V c main_arg4) (V c main_arg5) (V c main_arg6)

/-- WHAT POINT t WRITES BACK is block t of the edge model on the arrays the region finds. -/
theorem flushed_eq (c : Dev nD) (t : Fin cfg0.N) :
    (dat0 V c).flushed 9 t = ((cfg0.win 9).blk t).view.read (Elt Ideal) (result V c) := by
  show (cfg0.win 9).cut (grid0.coords t) ((dat0 V c).after 9 t) = _
  rw [after0_9]
  unfold out0_9
  rw [View.canon_unit_zero hz2]
  simp only [View.ld_unit_zero (S := S2000x128) hz2, View.ld_unit_zero (S := S128x128) hz2, View.ld_unit_zero (S := S128) hz1]
  rw [iblk_whole3 V c t, iblk_whole4 V c t, iblk_whole5 V c t, iblk_whole6 V c t, iblk_whole7 V c t, iblk_whole8 V c t]
  have ht : t.val < 320 := lt_of_lt_of_eq t.isLt (N_0 : cfg0.N = 320)
  have hf := idx_facts t
  funext j
  rw [View.read_apply]
  have hj : (j : S2000x128.Idx) = ix2 (j 0) (j 1) := eq_ix2 j
  refine (congrArg _ hj).trans ?_
  refine (block_eq (iblk0 V c 0 t) (iblk0 V c 1 t) (iblk0 V c 2 t) (V c main_v6) (V c main_v7) (V c main_v8) (V c main_arg4) (V c main_arg5) (V c main_arg6)
    (V c main_v4) (V c main_v5) (V c main_arg2) t.val ht
    (fun p k => iblk_rows0 V c t p k _ rfl rfl) (fun p k => iblk_rows1 V c t p k _ rfl rfl) (fun p k => iblk_rows2 V c t p k _ rfl rfl) (j 0) (j 1)).trans ?_
  show result V c _ = result V c _
  congr 1
  funext a
  apply Fin.ext
  match a with
  | ⟨0, _⟩ => show 2000 * t.val + (j 0).val = win0_9.index t (0 : Fin 2) * 2000 + 1 * (j 0).val; omega
  | ⟨1, _⟩ => show (j 1).val = win0_9.index t (1 : Fin 2) * 128 + 1 * (j 1).val; omega

/-- An index of the result array is in point t's block iff each coordinate is in the block's range on its axis. -/
theorem mem_blk (t : Fin cfg0.N) (i : S640000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v9).slice (win0_9.rect t)).set ↔ _
  rw [View.set_slice_whole, Rect.mem_set_unit]
  exact Iff.rfl

/-- THE RESULT ARRAY after the region: row e lies in the block of point e / 2000, so the blocks cover the array. -/
theorem final (c : Dev nD) : (dat0 V c).arrAt 9 cfg0.N = result V c :=
  (dat0 V c).arrAt_eq_of_cover 9 (result V c) (fun t _ => flushed_eq V c t) fun i => by
    have hi0 : (i 0).val < 640000 := (i 0).isLt
    have hi1 : (i 1).val < 128 := (i 1).isLt
    have hN : cfg0.N = 320 := N_0
    obtain ⟨t, ht⟩ : ∃ t : Fin cfg0.N, t.val = (i 0).val / 2000 := ⟨⟨(i 0).val / 2000, by rw [hN]; omega⟩, rfl⟩
    have hf := idx_facts t
    refine ⟨t, flush0_9 t, ?_⟩
    rw [mem_blk]
    intro a
    match a with
    | ⟨0, _⟩ => show win0_9.index t (0 : Fin 2) * 2000 ≤ (i 0).val ∧ (i 0).val < win0_9.index t (0 : Fin 2) * 2000 + 2000; omega
    | ⟨1, _⟩ => show win0_9.index t (1 : Fin 2) * 128 ≤ (i 1).val ∧ (i 1).val < win0_9.index t (1 : Fin 2) * 128 + 128; omega

end Region

end Cert.KernelIdeal.Edge

end
-- ==== Proof.KNode.lean ====
/-
  Region 1 (the node model) as one whole-array function.
  Grid point t stores, into rows 2000 t … 2000 t + 1999 of the node result, the perceptron's output on the same rows
  of its two row inputs — the node features and the mean of the incoming edge results — the weight and bias windows
  being whole arrays at every point. The 25 blocks tile the 50000 rows, so the result array ends holding that one
  function of the arrays the region finds: row n, column j is output unit j on row n of the two inputs.
-/
import proofs.«417618_j1589137899997_1_alg».proof.Proof.Gen.KernelIdeal.Frame
import proofs.«417618_j1589137899997_1_alg».proof.Proof.KBody
import proofs.«417618_j1589137899997_1_alg».proof.Proof.Spec
import Idealize.ShloMosaic.Lib.Pipeline.Value
import Idealize.ShloMosaic.Lib.ValueIdx

set_option maxRecDepth 16384

noncomputable section

namespace Cert.KernelIdeal.Node

open Cert.KernelIdeal Cert.KernelIdeal.Gen
open Idealize.ShloMosaic Idealize.ShloMosaic.TcCoe Idealize.SL.Sem Idealize.ShloMosaic.ValueIdx
open Idealize.ShloMosaic.Pipeline (Dat)

/-- The node model on whole arrays: element (n, j) is output unit j on row n of the two row inputs. -/
def nodeArr (X0 X1 : FVec Ideal S50000x128 .f32) (W2 W3 : FVec Ideal S128x128 .f32) (b4 : FVec Ideal S128 .f32)
    (W5 : FVec Ideal S128x128 .f32) (b6 : FVec Ideal S128 .f32) : FVec Ideal S50000x128 .f32 :=
  fun i => Cert.Mlp.outL
    (Cert.Mlp.hid2 (fun k => X0 (ix2 (⟨(i 0).val, (i 0).isLt⟩ : Fin 50000) k)) (fun k => X1 (ix2 (⟨(i 0).val, (i 0).isLt⟩ : Fin 50000) k))
      (fun k h => W2 (ix2 k h)) (fun k h => W3 (ix2 k h)) (fun h => b4 (ix1 h)))
    (fun h q => W5 (ix2 h q)) (fun q => b6 (ix1 q)) (⟨(i 1).val, (i 1).isLt⟩ : Fin 128)

theorem hz2 : (![0, 0] : Fin 2 → Nat) = fun _ => 0 := funext fun a => by fin_cases a <;> rfl
theorem hz1 : (![0] : Fin 1 → Nat) = fun _ => 0 := funext fun a => by fin_cases a; rfl

/-- One block: if the two row blocks are rows 2000 t … of the arrays, the body's stored block is the same rows of
    the node model on the arrays. -/
theorem block_eq (x0 x1 : Vec Ideal S2000x128 .f32) (x2 x3 : Vec Ideal S128x128 .f32) (x4 : Vec Ideal S128 .f32)
    (x5 : Vec Ideal S128x128 .f32) (x6 : Vec Ideal S128 .f32) (X0 X1 : FVec Ideal S50000x128 .f32) (t : Nat) (ht : t < 25)
    (h0 : ∀ (p : Fin 2000) (k : Fin 128), x0 (ix2 p k) = X0 (ix2 (⟨2000 * t + p.val, by omega⟩ : Fin 50000) k))
    (h1 : ∀ (p : Fin 2000) (k : Fin 128), x1 (ix2 p k) = X1 (ix2 (⟨2000 * t + p.val, by omega⟩ : Fin 50000) k))
    (p : Fin 2000) (q : Fin 128) :
    k1_pay1 (F := Ideal) x0 x1 x2 x3 x4 x5 x6 (ix2 p q)
      = nodeArr X0 X1 x2 x3 x4 x5 x6 (ix2 (⟨2000 * t + p.val, by omega⟩ : Fin 50000) q) := by
  rw [Cert.KernelIdeal.Body.pay1_apply]
  unfold nodeArr
  simp only [h0, h1]

section Region
variable (V : (c : Dev nD) → (b : Ref sig .tc) → Buf (Elt Ideal) ((c : Thread nD τ).loc b))

/-- The printed index maps over the grid: the two row windows and the output move with the point, row block t;
    the weight and bias windows stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row window 0's block at point t is rows 2000 t … 2000 t + 1999 of its array. -/
theorem iblk_rows0 (c : Dev nD) (t : Fin cfg1.N) (p : Fin 2000) (k : Fin 128) (i : S50000x128.Idx)
    (hi0 : (i 0).val = 2000 * t.val + p.val) (hi1 : (i 1).val = k.val) :
    (iblk1 V c 0 t : Vec Ideal S2000x128 .f32) (ix2 p k) = (V c main_arg0 : FVec Ideal S50000x128 .f32) i := by
  unfold iblk1
  rw [View.read_apply]
  show V c main_arg0 _ = V c main_arg0 i
  congr 1
  funext a
  apply Fin.ext
  have hf := idx_facts t
  match a with
  | ⟨0, _⟩ => show win1_0.index t (0 : Fin 2) * 2000 + 1 * p.val = (i 0).val; omega
  | ⟨1, _⟩ => show win1_0.index t (1 : Fin 2) * 128 + 1 * k.val = (i 1).val; omega

/-- Row window 1's block at point t is rows 2000 t … 2000 t + 1999 of its array. -/
theorem iblk_rows1 (c : Dev nD) (t : Fin cfg1.N) (p : Fin 2000) (k : Fin 128) (i : S50000x128.Idx)
    (hi0 : (i 0).val = 2000 * t.val + p.val) (hi1 : (i 1).val = k.val) :
    (iblk1 V c 1 t : Vec Ideal S2000x128 .f32) (ix2 p k) = (V c main_v20 : FVec Ideal S50000x128 .f32) i := by
  unfold iblk1
  rw [View.read_apply]
  show V c main_v20 _ = V c main_v20 i
  congr 1
  funext a
  apply Fin.ext
  have hf := idx_facts t
  match a with
  | ⟨0, _⟩ => show win1_1.index t (0 : Fin 2) * 2000 + 1 * p.val = (i 0).val; omega
  | ⟨1, _⟩ => show win1_1.index t (1 : Fin 2) * 128 + 1 * k.val = (i 1).val; omega

/-! The weight and bias windows hold their whole arrays at every point. -/

theorem iblk_whole2 (c : Dev nD) (t : Fin cfg1.N) : (iblk1 V c 2 t : Vec Ideal S128x128 .f32) = V c main_v21 := by
  funext y
  unfold iblk1
  rw [View.read_apply]
  show V c main_v21 _ = V c main_v21 y
  congr 1
  funext a
  apply Fin.ext
  have hf := idx_facts t
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem iblk_whole3 (c : Dev nD) (t : Fin cfg1.N) : (iblk1 V c 3 t : Vec Ideal S128x128 .f32) = V c main_v22 := by
  funext y
  unfold iblk1
  rw [View.read_apply]
  show V c main_v22 _ = V c main_v22 y
  congr 1
  funext a
  apply Fin.ext
  have hf := idx_facts t
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem iblk_whole4 (c : Dev nD) (t : Fin cfg1.N) : (iblk1 V c 4 t : Vec Ideal S128 .f32) = V c main_arg8 := by
  funext y
  unfold iblk1
  rw [View.read_apply]
  show V c main_arg8 _ = V c main_arg8 y
  congr 1
  funext a
  apply Fin.ext
  have hf := idx_facts t
  match a with
  | ⟨0, _⟩ => show win1_4.index t (0 : Fin 1) * 128 + 1 * (y 0).val = (y 0).val; omega

theorem iblk_whole5 (c : Dev nD) (t : Fin cfg1.N) : (iblk1 V c 5 t : Vec Ideal S128x128 .f32) = V c main_arg9 := by
  funext y
  unfold iblk1
  rw [View.read_apply]
  show V c main_arg9 _ = V c main_arg9 y
  congr 1
  funext a
  apply Fin.ext
  have hf := idx_facts t
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem iblk_whole6 (c : Dev nD) (t : Fin cfg1.N) : (iblk1 V c 6 t : Vec Ideal S128 .f32) = V c main_arg10 := by
  funext y
  unfold iblk1
  rw [View.read_apply]
  show V c main_arg10 _ = V c main_arg10 y
  congr 1
  funext a
  apply Fin.ext
  have hf := idx_facts t
  match a with
  | ⟨0, _⟩ => show win1_6.index t (0 : Fin 1) * 128 + 1 * (y 0).val = (y 0).val; omega

/-- The region's result as a function of the arrays the region finds. -/
abbrev result (c : Dev nD) : FVec Ideal S50000x128 .f32 :=
  nodeArr (V c main_arg0) (V c main_v20) (V c main_v21) (V c main_v22) (V c main_arg8) (V c main_arg9) (V c main_arg10)

/-- WHAT POINT t WRITES BACK is block t of the node model on the arrays the region finds. -/
theorem flushed_eq (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz2]
  simp only [View.ld_unit_zero (S := S2000x128) hz2, View.ld_unit_zero (S := S128x128) hz2, View.ld_unit_zero (S := S128) hz1]
  rw [iblk_whole2 V c t, iblk_whole3 V c t, iblk_whole4 V c t, iblk_whole5 V c t, iblk_whole6 V c t]
  have ht : t.val < 25 := lt_of_lt_of_eq t.isLt (N_1 : cfg1.N = 25)
  have hf := idx_facts t
  funext j
  rw [View.read_apply]
  have hj : (j : S2000x128.Idx) = ix2 (j 0) (j 1) := eq_ix2 j
  refine (congrArg _ hj).trans ?_
  refine (block_eq (iblk1 V c 0 t) (iblk1 V c 1 t) (V c main_v21) (V c main_v22) (V c main_arg8) (V c main_arg9) (V c main_arg10)
    (V c main_arg0) (V c main_v20) t.val ht
    (fun p k => iblk_rows0 V c t p k _ rfl rfl) (fun p k => iblk_rows1 V c t p k _ rfl rfl) (j 0) (j 1)).trans ?_
  show result V c _ = result V c _
  congr 1
  funext a
  apply Fin.ext
  match a with
  | ⟨0, _⟩ => show 2000 * t.val + (j 0).val = win1_7.index t (0 : Fin 2) * 2000 + 1 * (j 0).val; omega
  | ⟨1, _⟩ => show (j 1).val = win1_7.index t (1 : Fin 2) * 128 + 1 * (j 1).val; omega

/-- An index of the result array is in point t's block iff each coordinate is in the block's range on its axis. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v23).slice (win1_7.rect t)).set ↔ _
  rw [View.set_slice_whole, Rect.mem_set_unit]
  exact Iff.rfl

/-- THE RESULT ARRAY after the region: row n lies in the block of point n / 2000, so the blocks cover the array. -/
theorem final (c : Dev nD) : (dat1 V c).arrAt 7 cfg1.N = result V c :=
  (dat1 V c).arrAt_eq_of_cover 7 (result V c) (fun t _ => flushed_eq V c t) fun i => by
    have hi0 : (i 0).val < 50000 := (i 0).isLt
    have hi1 : (i 1).val < 128 := (i 1).isLt
    have hN : cfg1.N = 25 := N_1
    obtain ⟨t, ht⟩ : ∃ t : Fin cfg1.N, t.val = (i 0).val / 2000 := ⟨⟨(i 0).val / 2000, by rw [hN]; omega⟩, rfl⟩
    have hf := idx_facts t
    refine ⟨t, flush1_7 t, ?_⟩
    rw [mem_blk]
    intro a
    match a with
    | ⟨0, _⟩ => show win1_7.index t (0 : Fin 2) * 2000 ≤ (i 0).val ∧ (i 0).val < win1_7.index t (0 : Fin 2) * 2000 + 2000; omega
    | ⟨1, _⟩ => show win1_7.index t (1 : Fin 2) * 128 ≤ (i 1).val ∧ (i 1).val < win1_7.index t (1 : Fin 2) * 128 + 128; omega

end Region

end Cert.KernelIdeal.Node

end
-- ==== Proof.TakeMask.lean ====
/-
  The kernel's row gather is jnp.take in fill mode: it wraps a negative index once (i + 50000), gathers (the gather
  clamps its start index), and keeps the gathered row only where the wrapped index lies in [0, 49999], filling the
  row with the NaN word elsewhere. The precondition says every entry of edge_index lies in [0, 50000): then a wrapped
  index is the index itself, the range test passes at every edge, the mask is all ones, and the take IS the plain
  gather — the reference's x[row].
-/
import proofs.«417618_j1589137899997_1_alg».proof.Defs
import proofs.«417618_j1589137899997_1_alg».proof.Proof.Gen.KernelIdeal
import proofs.«417618_j1589137899997_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Take

open Cert.KernelIdeal Cert.KernelIdeal.Gen
open Idealize.ShloMosaic Idealize.ShloMosaic.TcCoe Idealize.SL.Sem Idealize.ShloMosaic.ValueIdx

/-- A node index: a 32-bit word in [0, 50000), as the precondition's two signed comparisons say it. -/
def InRange (w : BitVec 32) : Prop := IntOp.cmpi .sge w 0#32 = 1#1 ∧ IntOp.cmpi .slt w 50000#32 = 1#1

/-- Row 0 of edge_index (the source nodes), as @main slices and reshapes it. -/
def srcRow (a1 : IVec S2x640000 32) : IVec S640000 32 :=
  shapeCast _ (extractStridedSlice S1x640000 ![0, 0] a1 slices_S2x640000_S1x640000_0_0) shapeCasts_S1x640000_S640000

/-- Row 1 of edge_index (the destination nodes). -/
def dstRow (a1 : IVec S2x640000 32) : IVec S640000 32 :=
  shapeCast _ (extractStridedSlice S1x640000 ![1, 0] a1 slices_S2x640000_S1x640000_1_0) shapeCasts_S1x640000_S640000

/-- The start indices both programs gather at: a negative index wrapped once, as a column. -/
def wrapCol (r : IVec S640000 32) : IVec S640000x1 32 :=
  broadcastInDim S640000x1 ![0] bcast_S640000_S640000x1_0
    (select (cmpi .slt r (broadcastInDim S640000 ![] bcast_S_S640000 (constantI S_ 32 0#32)))
      (addi r (broadcastInDim S640000 ![] bcast_S_S640000 (constantI S_ 32 50000#32))) r)

/-- The plain row gather x[r] (the reference's). -/
def gatherRows (x : FVec Ideal S50000x128 .f32) (r : IVec S640000 32) : FVec Ideal S640000x128 .f32 :=
  Host.gather gather_S50000x128_S640000x1_S640000x128_1_0_n_n_0_1_1128 x (wrapCol r)

/-- The kernel's fill-mode take of rows r of x: the gather where the wrapped index is in [0, 49999], the NaN word elsewhere. -/
def takeRows (x : FVec Ideal S50000x128 .f32) (r : IVec S640000 32) : FVec Ideal S640000x128 .f32 :=
  select
    (broadcastInDim S640000x128 ![0] bcast_S640000_S640000x128_0
      ((fun x v => Host.reduce IntOp.andi x v reducesTo_S640000x1_S640000_d1 h_S_)
        (andi (cmpi .sge (wrapCol r) (broadcastInDim S640000x1 ![] bcast_S_S640000x1 (constantI S_ 32 0#32)))
              (cmpi .sle (wrapCol r) (broadcastInDim S640000x1 ![0, 1] bcast_S1x1_S640000x1_0_1
                (broadcastInDim S1x1 ![1] bcast_S1_S1x1_1 (constantI S1 32 49999#32)))))
        (constantI S_ 1 1#1)))
    (Host.gather gather_S50000x128_S640000x1_S640000x128_1_0_n_n_0_1_1128 x (wrapCol r))
    (broadcastInDim S640000x128 ![] bcast_S_S640000x128 (constant S_ .f32 0x7FC00000#32))

/-! ### Words -/

private theorem ofBool_one (b : Bool) : BitVec.ofBool b = 1#1 ↔ b = true := by cases b <;> decide
private theorem ofBool_zero (b : Bool) : BitVec.ofBool b = 0#1 ↔ b = false := by cases b <;> decide

/-- An in-range word read signed lies in [0, 50000). -/
private theorem toInt_range {w : BitVec 32} (hw : InRange w) : 0 ≤ w.toInt ∧ w.toInt < 50000 := by
  obtain ⟨h0, h1⟩ := hw
  unfold IntOp.cmpi at h0 h1
  rw [ofBool_one] at h0 h1
  simp only [BitVec.slt, BitVec.sle, decide_eq_true_eq] at h0 h1
  have z0 : (0#32 : BitVec 32).toInt = 0 := by decide
  have z5 : (50000#32 : BitVec 32).toInt = 50000 := by decide
  rw [z0] at h0; rw [z5] at h1
  exact ⟨h0, h1⟩

/-- An in-range word is not negative: the wrap's test fails. -/
private theorem slt_zero {w : BitVec 32} (hw : InRange w) : IntOp.cmpi .slt w 0#32 = 0#1 := by
  obtain ⟨a, b⟩ := toInt_range hw
  unfold IntOp.cmpi
  rw [ofBool_zero]
  simp only [BitVec.slt, decide_eq_false_iff_not]
  have z0 : (0#32 : BitVec 32).toInt = 0 := by decide
  rw [z0]; omega

/-- An in-range word is at most 49999. -/
private theorem sle_max {w : BitVec 32} (hw : InRange w) : IntOp.cmpi .sle w 49999#32 = 1#1 := by
  obtain ⟨a, b⟩ := toInt_range hw
  unfold IntOp.cmpi
  rw [ofBool_one]
  simp only [BitVec.sle, decide_eq_true_eq]
  have z : (49999#32 : BitVec 32).toInt = 49999 := by decide
  rw [z]; omega

/-! ### A conjunction of ones -/

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1) (1#1) = 1#1 from by decide]
    exact foldl_andi_one f hf l

/-- A reduce by `and` from 1 of an array of ones is 1 at every result index. -/
private theorem reduce_andi_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_one x hx _

/-- A select whose mask bit is 1 at an index reads its first branch there. -/
private theorem select_of_one {s : Shape} {α : Type} (c : IVec s 1) (a b : s.Idx → α) (i : s.Idx) (hc : c i = 1#1) :
    select c a b i = a i := by
  rw [ValueIdx.select_apply, hc, ValueIdx.select_one]

/-- On an in-range row the wrapped index column passes the range test at every entry. -/
private theorem mask_elem (r : IVec S640000 32) (hr : ∀ i, InRange (r i)) (k : S640000x1.Idx) :
    (andi (cmpi .sge (wrapCol r) (broadcastInDim S640000x1 ![] bcast_S_S640000x1 (constantI S_ 32 0#32)))
          (cmpi .sle (wrapCol r) (broadcastInDim S640000x1 ![0, 1] bcast_S1x1_S640000x1_0_1
            (broadcastInDim S1x1 ![1] bcast_S1_S1x1_1 (constantI S1 32 49999#32))))) k = 1#1 := by
  obtain ⟨e, he⟩ : ∃ e : S640000.Idx,
      wrapCol r k = Scalar.select (IntOp.cmpi .slt (r e) 0#32) (IntOp.addi (r e) 50000#32) (r e) := ⟨_, rfl⟩
  have hw : wrapCol r k = r e := by rw [he, slt_zero (hr e), ValueIdx.select_zero]
  show IntOp.andi (IntOp.cmpi .sge (wrapCol r k) 0#32) (IntOp.cmpi .sle (wrapCol r k) 49999#32) = 1#1
  rw [hw]
  exact IntOp.andi_eq_one.2 ⟨(hr e).1, sle_max (hr e)⟩

/-- THE PRECONDITION DECODED: every entry of edge_index is a node index. -/
theorem idx_in_range (m : (ℓ : Loc nD τ sig) → Buf (Elt Ideal) ℓ) (h : Cert.Pre_KernelIdeal m) (c : Dev nD) (i : S2x640000.Idx) :
    InRange ((m ((c.tc : Thread nD τ).loc main_arg1) : IVec S2x640000 32) i) := by
  have e := congrFun (h c) ValueIdx.ix0
  dsimp only [Cert.Pre_finite_inputs.fn, Cert.Pre_finite_inputs.fn_part1, Cert.Pre_finite_inputs.fn_part2,
    Cert.Pre_finite_inputs.fn_part3] at e
  have e2 := (IntOp.andi_eq_one.1 e).2
  haveI : Subsingleton Cert.Pre_finite_inputs.S_.Idx := ⟨fun a b => funext fun d => d.elim0⟩
  have e3 := Host.reduce_andi_all _ _ _ _ _ e2 i
  obtain ⟨h0, h1⟩ := IntOp.andi_eq_one.1 e3
  exact ⟨h0, h1⟩

/-- Each row of an in-range edge_index is in range. -/
theorem srcRow_in_range (a1 : IVec S2x640000 32) (h : ∀ i, InRange (a1 i)) (i : S640000.Idx) : InRange (srcRow a1 i) := by
  unfold srcRow shapeCast extractStridedSlice
  exact h _
theorem dstRow_in_range (a1 : IVec S2x640000 32) (h : ∀ i, InRange (a1 i)) (i : S640000.Idx) : InRange (dstRow a1 i) := by
  unfold dstRow shapeCast extractStridedSlice
  exact h _

/-- On in-range indices the fill-mode take is the plain gather. -/
theorem takeRows_eq (x : FVec Ideal S50000x128 .f32) (r : IVec S640000 32) (hr : ∀ i, InRange (r i)) :
    takeRows x r = gatherRows x r := by
  funext i
  unfold takeRows gatherRows
  refine select_of_one _ _ _ i ?_
  unfold broadcastInDim
  exact reduce_andi_one _ _ _ _ (mask_elem r hr) rfl _

end Cert.KernelIdeal.Take

end
-- ==== Proof.KValue.lean ====
/-
  The kernel program's two results as functions of its arguments, at the ideal instance.
  Before region 0 the host slices edge_index into its two rows, takes the rows of x they name, and cuts the first
  weight matrix into its three row-blocks: region 0's result array is the edge model of those. After it the host
  sums the edge results into their source nodes, divides by the in-degree (at least one), and cuts the second model's
  first weight matrix into two row-blocks: region 1's result array is the node model of x and that mean. Under the
  precondition the fill-mode takes are plain gathers.
-/
import proofs.«417618_j1589137899997_1_alg».proof.Proof.Gen.KernelIdeal.Frame
import proofs.«417618_j1589137899997_1_alg».proof.Proof.KRun
import proofs.«417618_j1589137899997_1_alg».proof.Proof.KEdge
import proofs.«417618_j1589137899997_1_alg».proof.Proof.KNode
import proofs.«417618_j1589137899997_1_alg».proof.Proof.TakeMask
import Idealize.ShloMosaic.Lib.StableHlo.Run

set_option maxRecDepth 16384
set_option Elab.async false

noncomputable section

namespace Cert.KernelIdeal.Whole

open Cert.KernelIdeal Cert.KernelIdeal.Gen
open Idealize.ShloMosaic Idealize.ShloMosaic.TcCoe Idealize.SL.Sem Idealize.ShloMosaic.StableHlo
open Cert.KernelIdeal.Take

/-- The scatter-mean both programs apply to the edge results: the sum of the edge rows landing on each node over
    the number of them, that number floored at one. -/
def meanOf (eo : FVec Ideal S640000x128 .f32) (r : IVec S640000 32) : FVec Ideal S50000x128 .f32 :=
  Host.divf
    (Host.scatterAdd scatter_S50000x128_S640000x1_S640000x128_1_0_0_1
      (broadcastInDim S50000x128 ![] bcast_S_S50000x128 (constant S_ .f32 0x00000000#32))
      (broadcastInDim S640000x1 ![0] bcast_S640000_S640000x1_0 r) eo)
    (broadcastInDim S50000x128 ![0, 1] bcast_S50000x1_S50000x128_0_1
      (maximumf
        (Host.scatterAdd scatter_S50000x1_S640000x1_S640000x1_1_0_0_1
          (broadcastInDim S50000x1 ![] bcast_S_S50000x1 (constant S_ .f32 0x00000000#32))
          (broadcastInDim S640000x1 ![0] bcast_S640000_S640000x1_0 r)
          (broadcastInDim S640000x1 ![] bcast_S_S640000x1 (constant S_ .f32 0x3F800000#32)))
        (broadcastInDim S50000x1 ![] bcast_S_S50000x1 (constant S_ .f32 0x3F800000#32))))

variable (m : (ℓ : Loc nD τ sig) → Buf (Elt Ideal) ℓ) (ρ : Dev nD → PrngReg)

/-! ## What region 0 finds -/

/-! One host stretch at a time, from any contents `U`: what it writes, and what it leaves alone. -/
section Stretch
variable (U : Valuation τ sig (Elt Ideal))

theorem rows_v1 : StableHlo.after hostOps0 U (Proc.devRef .tc main_v1) = srcRow (U (Proc.devRef .tc main_arg1)) := by
  after_results_simp
  rfl
theorem rows_v3 : StableHlo.after hostOps0 U (Proc.devRef .tc main_v3) = dstRow (U (Proc.devRef .tc main_arg1)) := by
  after_results_simp
  rfl
theorem keep0_arg0 : StableHlo.after hostOps0 U (Proc.devRef .tc main_arg0) = U (Proc.devRef .tc main_arg0) := by
  after_results_simp
/-- The first take: rows of x at the source nodes. -/
theorem take_v4 : StableHlo.after hostOps0_1 U (Proc.devRef .tc main_v4)
    = takeRows (U (Proc.devRef .tc main_arg0)) (U (Proc.devRef .tc main_v1)) := by
  after_results_simp
  simp only [cast_eq]
  rfl
theorem keep1_arg0 : StableHlo.after hostOps0_1 U (Proc.devRef .tc main_arg0) = U (Proc.devRef .tc main_arg0) := by
  after_results_simp
theorem keep1_v3 : StableHlo.after hostOps0_1 U (Proc.devRef .tc main_v3) = U (Proc.devRef .tc main_v3) := by
  after_results_simp
/-- The second take: rows of x at the destination nodes. -/
theorem take_v5 : StableHlo.after hostOps0_2 U (Proc.devRef .tc main_v5)
    = takeRows (U (Proc.devRef .tc main_arg0)) (U (Proc.devRef .tc main_v3)) := by
  after_results_simp
  simp only [cast_eq]
  rfl
theorem keep2_v4 : StableHlo.after hostOps0_2 U (Proc.devRef .tc main_v4) = U (Proc.devRef .tc main_v4) := by
  after_results_simp
theorem keep3_v4 : StableHlo.after hostOps0_3 U (Proc.devRef .tc main_v4) = U (Proc.devRef .tc main_v4) := by
  after_results_simp
theorem keep3_v5 : StableHlo.after hostOps0_3 U (Proc.devRef .tc main_v5) = U (Proc.devRef .tc main_v5) := by
  after_results_simp

end Stretch

theorem V4_v4 (c : Dev nD) : V4 m ρ c main_v4
    = takeRows (m ((c.tc : Thread nD τ).loc main_arg0)) (srcRow (m ((c.tc : Thread nD τ).loc main_arg1))) := by
  show StableHlo.after hostOps0_3 (StableHlo.after hostOps0_2 (StableHlo.after hostOps0_1 (StableHlo.after hostOps0 (W0 m ρ c)))) (Proc.devRef .tc main_v4) = _
  rw [keep3_v4, keep2_v4, take_v4, keep0_arg0, rows_v1]

theorem V4_v5 (c : Dev nD) : V4 m ρ c main_v5
    = takeRows (m ((c.tc : Thread nD τ).loc main_arg0)) (dstRow (m ((c.tc : Thread nD τ).loc main_arg1))) := by
  show StableHlo.after hostOps0_3 (StableHlo.after hostOps0_2 (StableHlo.after hostOps0_1 (StableHlo.after hostOps0 (W0 m ρ c)))) (Proc.devRef .tc main_v5) = _
  rw [keep3_v5, take_v5, keep1_arg0, keep0_arg0, keep1_v3, rows_v3]

theorem V4_v6 (c : Dev nD) : V4 m ρ c main_v6
    = extractStridedSlice S128x128 ![0, 0] (m ((c.tc : Thread nD τ).loc main_arg3)) slices_S384x128_S128x128_0_0 := by
  show StableHlo.after hostOps0_3 (StableHlo.after hostOps0_2 (StableHlo.after hostOps0_1 (StableHlo.after hostOps0 (W0 m ρ c)))) (Proc.devRef .tc main_v6) = _
  after_results_simp
theorem V4_v7 (c : Dev nD) : V4 m ρ c main_v7
    = extractStridedSlice S128x128 ![128, 0] (m ((c.tc : Thread nD τ).loc main_arg3)) slices_S384x128_S128x128_128_0 := by
  show StableHlo.after hostOps0_3 (StableHlo.after hostOps0_2 (StableHlo.after hostOps0_1 (StableHlo.after hostOps0 (W0 m ρ c)))) (Proc.devRef .tc main_v7) = _
  after_results_simp
theorem V4_v8 (c : Dev nD) : V4 m ρ c main_v8
    = extractStridedSlice S128x128 ![256, 0] (m ((c.tc : Thread nD τ).loc main_arg3)) slices_S384x128_S128x128_256_0 := by
  show StableHlo.after hostOps0_3 (StableHlo.after hostOps0_2 (StableHlo.after hostOps0_1 (StableHlo.after hostOps0 (W0 m ρ c)))) (Proc.devRef .tc main_v8) = _
  after_results_simp

theorem V4_arg2 (c : Dev nD) : V4 m ρ c main_arg2 = m ((c.tc : Thread nD τ).loc main_arg2) := by
  show StableHlo.after hostOps0_3 (StableHlo.after hostOps0_2 (StableHlo.after hostOps0_1 (StableHlo.after hostOps0 (W0 m ρ c)))) (Proc.devRef .tc main_arg2) = _
  after_results_simp
theorem V4_arg4 (c : Dev nD) : V4 m ρ c main_arg4 = m ((c.tc : Thread nD τ).loc main_arg4) := by
  show StableHlo.after hostOps0_3 (StableHlo.after hostOps0_2 (StableHlo.after hostOps0_1 (StableHlo.after hostOps0 (W0 m ρ c)))) (Proc.devRef .tc main_arg4) = _
  after_results_simp
theorem V4_arg5 (c : Dev nD) : V4 m ρ c main_arg5 = m ((c.tc : Thread nD τ).loc main_arg5) := by
  show StableHlo.after hostOps0_3 (StableHlo.after hostOps0_2 (StableHlo.after hostOps0_1 (StableHlo.after hostOps0 (W0 m ρ c)))) (Proc.devRef .tc main_arg5) = _
  after_results_simp
theorem V4_arg6 (c : Dev nD) : V4 m ρ c main_arg6 = m ((c.tc : Thread nD τ).loc main_arg6) := by
  show StableHlo.after hostOps0_3 (StableHlo.after hostOps0_2 (StableHlo.after hostOps0_1 (StableHlo.after hostOps0 (W0 m ρ c)))) (Proc.devRef .tc main_arg6) = _
  after_results_simp
theorem V4_v1 (c : Dev nD) : V4 m ρ c main_v1 = srcRow (m ((c.tc : Thread nD τ).loc main_arg1)) := by
  show StableHlo.after hostOps0_3 (StableHlo.after hostOps0_2 (StableHlo.after hostOps0_1 (StableHlo.after hostOps0 (W0 m ρ c)))) (Proc.devRef .tc main_v1) = _
  after_results_simp
  rfl

/-! ## What region 0 leaves, and what region 1 finds -/

/-- Region 0's result array: the edge model of what it found. -/
theorem W5_v9 (c : Dev nD) : W5 m ρ c (Proc.devRef .tc main_v9) = Edge.result (V4 m ρ) c :=
  (W5_arr m ρ c 9).trans (Edge.final (V4 m ρ) c)

/-- The edge result as a function of the arguments: the edge model of the taken rows, the edge features and the weights. -/
def edgeOut (c : Dev nD) : FVec Ideal S640000x128 .f32 :=
  Edge.edgeArr (takeRows (m ((c.tc : Thread nD τ).loc main_arg0)) (srcRow (m ((c.tc : Thread nD τ).loc main_arg1))))
    (takeRows (m ((c.tc : Thread nD τ).loc main_arg0)) (dstRow (m ((c.tc : Thread nD τ).loc main_arg1))))
    (m ((c.tc : Thread nD τ).loc main_arg2))
    (extractStridedSlice S128x128 ![0, 0] (m ((c.tc : Thread nD τ).loc main_arg3)) slices_S384x128_S128x128_0_0)
    (extractStridedSlice S128x128 ![128, 0] (m ((c.tc : Thread nD τ).loc main_arg3)) slices_S384x128_S128x128_128_0)
    (extractStridedSlice S128x128 ![256, 0] (m ((c.tc : Thread nD τ).loc main_arg3)) slices_S384x128_S128x128_256_0)
    (m ((c.tc : Thread nD τ).loc main_arg4)) (m ((c.tc : Thread nD τ).loc main_arg5)) (m ((c.tc : Thread nD τ).loc main_arg6))

theorem W5_v9_eq (c : Dev nD) : W5 m ρ c (Proc.devRef .tc main_v9) = edgeOut m c := by
  rw [W5_v9]
  show Edge.edgeArr (V4 m ρ c main_v4) (V4 m ρ c main_v5) (V4 m ρ c main_arg2) (V4 m ρ c main_v6) (V4 m ρ c main_v7) (V4 m ρ c main_v8)
    (V4 m ρ c main_arg4) (V4 m ρ c main_arg5) (V4 m ρ c main_arg6) = _
  rw [V4_v4, V4_v5, V4_v6, V4_v7, V4_v8, V4_arg2, V4_arg4, V4_arg5, V4_arg6]
  rfl

/-- A buffer region 0 does not stage keeps its entry contents. -/
theorem W5_v1 (c : Dev nD) : W5 m ρ c (Proc.devRef .tc main_v1) = srcRow (m ((c.tc : Thread nD τ).loc main_arg1)) :=
  (W5_of_ne m ρ c main_v1 (by decide)).trans (V4_v1 m ρ c)

theorem W5_arg0 (c : Dev nD) : W5 m ρ c (Proc.devRef .tc main_arg0) = m ((c.tc : Thread nD τ).loc main_arg0) :=
  (W5_of_ne m ρ c main_arg0 (by decide)).trans (by
    show StableHlo.after hostOps0_3 (StableHlo.after hostOps0_2 (StableHlo.after hostOps0_1 (StableHlo.after hostOps0 (W0 m ρ c)))) (Proc.devRef .tc main_arg0) = _
    after_results_simp)
theorem W5_arg7 (c : Dev nD) : W5 m ρ c (Proc.devRef .tc main_arg7) = m ((c.tc : Thread nD τ).loc main_arg7) :=
  (W5_of_ne m ρ c main_arg7 (by decide)).trans (by
    show StableHlo.after hostOps0_3 (StableHlo.after hostOps0_2 (StableHlo.after hostOps0_1 (StableHlo.after hostOps0 (W0 m ρ c)))) (Proc.devRef .tc main_arg7) = _
    after_results_simp)
theorem W5_arg8 (c : Dev nD) : W5 m ρ c (Proc.devRef .tc main_arg8) = m ((c.tc : Thread nD τ).loc main_arg8) :=
  (W5_of_ne m ρ c main_arg8 (by decide)).trans (by
    show StableHlo.after hostOps0_3 (StableHlo.after hostOps0_2 (StableHlo.after hostOps0_1 (StableHlo.after hostOps0 (W0 m ρ c)))) (Proc.devRef .tc main_arg8) = _
    after_results_simp)
theorem W5_arg9 (c : Dev nD) : W5 m ρ c (Proc.devRef .tc main_arg9) = m ((c.tc : Thread nD τ).loc main_arg9) :=
  (W5_of_ne m ρ c main_arg9 (by decide)).trans (by
    show StableHlo.after hostOps0_3 (StableHlo.after hostOps0_2 (StableHlo.after hostOps0_1 (StableHlo.after hostOps0 (W0 m ρ c)))) (Proc.devRef .tc main_arg9) = _
    after_results_simp)
theorem W5_arg10 (c : Dev nD) : W5 m ρ c (Proc.devRef .tc main_arg10) = m ((c.tc : Thread nD τ).loc main_arg10) :=
  (W5_of_ne m ρ c main_arg10 (by decide)).trans (by
    show StableHlo.after hostOps0_3 (StableHlo.after hostOps0_2 (StableHlo.after hostOps0_1 (StableHlo.after hostOps0 (W0 m ρ c)))) (Proc.devRef .tc main_arg10) = _
    after_results_simp)

/-- Between the regions the host computes the scatter-mean of the edge result over the source nodes. -/
theorem V6_v20 (c : Dev nD) : V6 m ρ c main_v20 = meanOf (edgeOut m c) (srcRow (m ((c.tc : Thread nD τ).loc main_arg1))) := by
  show StableHlo.after hostOps1 (W5 m ρ c) (Proc.devRef .tc main_v20) = _
  after_results_simp
  rw [W5_v9_eq, W5_v1]
  rfl
theorem V6_v21 (c : Dev nD) : V6 m ρ c main_v21
    = extractStridedSlice S128x128 ![0, 0] (m ((c.tc : Thread nD τ).loc main_arg7)) slices_S256x128_S128x128_0_0 := by
  show StableHlo.after hostOps1 (W5 m ρ c) (Proc.devRef .tc main_v21) = _
  after_results_simp
  rw [W5_arg7]
theorem V6_v22 (c : Dev nD) : V6 m ρ c main_v22
    = extractStridedSlice S128x128 ![128, 0] (m ((c.tc : Thread nD τ).loc main_arg7)) slices_S256x128_S128x128_128_0 := by
  show StableHlo.after hostOps1 (W5 m ρ c) (Proc.devRef .tc main_v22) = _
  after_results_simp
  rw [W5_arg7]
theorem V6_arg0 (c : Dev nD) : V6 m ρ c main_arg0 = m ((c.tc : Thread nD τ).loc main_arg0) := by
  show StableHlo.after hostOps1 (W5 m ρ c) (Proc.devRef .tc main_arg0) = _
  after_results_simp
  exact W5_arg0 m ρ c
theorem V6_arg8 (c : Dev nD) : V6 m ρ c main_arg8 = m ((c.tc : Thread nD τ).loc main_arg8) := by
  show StableHlo.after hostOps1 (W5 m ρ c) (Proc.devRef .tc main_arg8) = _
  after_results_simp
  exact W5_arg8 m ρ c
theorem V6_arg9 (c : Dev nD) : V6 m ρ c main_arg9 = m ((c.tc : Thread nD τ).loc main_arg9) := by
  show StableHlo.after hostOps1 (W5 m ρ c) (Proc.devRef .tc main_arg9) = _
  after_results_simp
  exact W5_arg9 m ρ c
theorem V6_arg10 (c : Dev nD) : V6 m ρ c main_arg10 = m ((c.tc : Thread nD τ).loc main_arg10) := by
  show StableHlo.after hostOps1 (W5 m ρ c) (Proc.devRef .tc main_arg10) = _
  after_results_simp
  exact W5_arg10 m ρ c
theorem V6_v9 (c : Dev nD) : V6 m ρ c main_v9 = edgeOut m c := by
  show StableHlo.after hostOps1 (W5 m ρ c) (Proc.devRef .tc main_v9) = _
  after_results_simp
  exact W5_v9_eq m ρ c

/-! ## The two results at the end of the run -/

/-- The node result as a function of the arguments: the node model of x and the scatter-mean of the edge result. -/
def nodeOut (c : Dev nD) : FVec Ideal S50000x128 .f32 :=
  Node.nodeArr (m ((c.tc : Thread nD τ).loc main_arg0)) (meanOf (edgeOut m c) (srcRow (m ((c.tc : Thread nD τ).loc main_arg1))))
    (extractStridedSlice S128x128 ![0, 0] (m ((c.tc : Thread nD τ).loc main_arg7)) slices_S256x128_S128x128_0_0)
    (extractStridedSlice S128x128 ![128, 0] (m ((c.tc : Thread nD τ).loc main_arg7)) slices_S256x128_S128x128_128_0)
    (m ((c.tc : Thread nD τ).loc main_arg8)) (m ((c.tc : Thread nD τ).loc main_arg9)) (m ((c.tc : Thread nD τ).loc main_arg10))

theorem V7_v23 (c : Dev nD) : V7 m ρ c main_v23 = nodeOut m c := by
  refine ((W7_arr m ρ c 7).trans (Node.final (V6 m ρ) c)).trans ?_
  show Node.nodeArr (V6 m ρ c main_arg0) (V6 m ρ c main_v20) (V6 m ρ c main_v21) (V6 m ρ c main_v22) (V6 m ρ c main_arg8)
    (V6 m ρ c main_arg9) (V6 m ρ c main_arg10) = _
  rw [V6_arg0, V6_v20, V6_v21, V6_v22, V6_arg8, V6_arg9, V6_arg10]
  rfl

theorem V7_v9 (c : Dev nD) : V7 m ρ c main_v9 = edgeOut m c :=
  (W7_of_ne m ρ c main_v9 (by decide)).trans (V6_v9 m ρ c)

/-- THE RUN, READ: every weakly fair execution terminates with the node result at the node model of x and the
    scatter-mean of the edge result, the edge result at the edge model of the taken rows, the arguments unchanged. -/
theorem run : θ_run defs (onTc (τ := τ) (main (F := Ideal))) ⟨m, fun _ => 0, ρ⟩ (fun r => ∀ c : Dev nD,
      r.2.mem ((c.tc : Thread nD τ).loc main_v23) = nodeOut m c
      ∧ r.2.mem ((c.tc : Thread nD τ).loc main_v9) = edgeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (V7_v23 m ρ c), (h c).2.1.trans (V7_v9 m ρ c), (h c).2.2⟩)
    (Cert.KernelIdeal.NamedRun.run_named (F := Ideal) m ρ)

end Cert.KernelIdeal.Whole

end
-- ==== Proof.RefSide.lean ====
/-
  The reference's two results, read at one element, at the ideal instance.
  The edge result at (e, j): the joined row [x[row e], x[col e], edge_attr e] of width 384 against the first
  weight matrix is, summand by summand, the three rows against the matrix's three row-blocks (a sum over
  384 = 128 + 128 + 128 terms split at the joins), so hidden unit h is the perceptron's; then the rectifier, the
  second matrix and its bias. The node result at (n, j) the same with the joined row [x n, mean n] of width 256.
-/
import proofs.«417618_j1589137899997_1_alg».proof.Proof.Gen.ReferenceIdeal.Read
import proofs.«417618_j1589137899997_1_alg».proof.Proof.Spec
import Idealize.ShloMosaic.Lib.ValueIdx
import Idealize.ShloMosaic.Lib.Pipeline.Value
import Idealize.ShloMosaic.PureOps.Ideal.Laws

noncomputable section

namespace Cert.ReferenceIdeal.Elementwise

open Cert.ReferenceIdeal Cert.ReferenceIdeal.Gen Cert.ReferenceIdeal.Read
open Idealize.ShloMosaic Idealize.ShloMosaic.ValueIdx

/-! ### The two joined rows read at one element -/

section Joins
variable {α : Type}

/-- The three-piece join of width 384 at a column below 128 reads the first piece there. -/
private theorem cat3_fst (g0 g1 g2 : S640000x128.Idx → α) (e : Fin 640000) (k : Fin 128) :
    concatenate S640000x384 1 [⟨S640000x128, g0⟩, ⟨S640000x128, g1⟩, ⟨S640000x128, g2⟩]
        concatenates_S640000x128_S640000x128_S640000x128_S640000x384_d1 (ix2 e (⟨k.val, by omega⟩ : Fin 384))
      = g0 (ix2 e k) := by
  refine concatenate_apply_piece (1 : Fin S640000x384.rank) _ _ _ 0 (by simp) S640000x128 g0 rfl rfl 0 rfl (ix2 e k)
    (fun b => ?_) ?_
  · match b with
    | ⟨0, _⟩ => intro _; rfl
    | ⟨1, _⟩ => intro hb; exact absurd rfl hb
  · show 0 + k.val = k.val
    omega

/-- At a column 128 + k it reads the second piece at column k. -/
private theorem cat3_snd (g0 g1 g2 : S640000x128.Idx → α) (e : Fin 640000) (k : Fin 128) :
    concatenate S640000x384 1 [⟨S640000x128, g0⟩, ⟨S640000x128, g1⟩, ⟨S640000x128, g2⟩]
        concatenates_S640000x128_S640000x128_S640000x128_S640000x384_d1 (ix2 e (⟨128 + k.val, by omega⟩ : Fin 384))
      = g1 (ix2 e k) := by
  refine concatenate_apply_piece (1 : Fin S640000x384.rank) _ _ _ 1 (by simp) S640000x128 g1 rfl rfl 128 rfl (ix2 e k)
    (fun b => ?_) ?_
  · match b with
    | ⟨0, _⟩ => intro _; rfl
    | ⟨1, _⟩ => intro hb; exact absurd rfl hb
  · show 128 + k.val = 128 + k.val
    rfl

/-- At a column 256 + k it reads the third piece at column k. -/
private theorem cat3_thd (g0 g1 g2 : S640000x128.Idx → α) (e : Fin 640000) (k : Fin 128) :
    concatenate S640000x384 1 [⟨S640000x128, g0⟩, ⟨S640000x128, g1⟩, ⟨S640000x128, g2⟩]
        concatenates_S640000x128_S640000x128_S640000x128_S640000x384_d1 (ix2 e (⟨256 + k.val, by omega⟩ : Fin 384))
      = g2 (ix2 e k) := by
  refine concatenate_apply_piece (1 : Fin S640000x384.rank) _ _ _ 2 (by simp) S640000x128 g2 rfl rfl 256 rfl (ix2 e k)
    (fun b => ?_) ?_
  · match b with
    | ⟨0, _⟩ => intro _; rfl
    | ⟨1, _⟩ => intro hb; exact absurd rfl hb
  · show 256 + k.val = 256 + k.val
    rfl

/-- The two-piece join of width 256 at a column below 128 reads the first piece there. -/
private theorem cat2_fst (g0 g1 : S50000x128.Idx → α) (n : Fin 50000) (k : Fin 128) :
    concatenate S50000x256 1 [⟨S50000x128, g0⟩, ⟨S50000x128, g1⟩]
        concatenates_S50000x128_S50000x128_S50000x256_d1 (ix2 n (⟨k.val, by omega⟩ : Fin 256))
      = g0 (ix2 n k) := by
  refine concatenate_apply_piece (1 : Fin S50000x256.rank) _ _ _ 0 (by simp) S50000x128 g0 rfl rfl 0 rfl (ix2 n k)
    (fun b => ?_) ?_
  · match b with
    | ⟨0, _⟩ => intro _; rfl
    | ⟨1, _⟩ => intro hb; exact absurd rfl hb
  · show 0 + k.val = k.val
    omega

/-- At a column 128 + k it reads the second piece at column k. -/
private theorem cat2_snd (g0 g1 : S50000x128.Idx → α) (n : Fin 50000) (k : Fin 128) :
    concatenate S50000x256 1 [⟨S50000x128, g0⟩, ⟨S50000x128, g1⟩]
        concatenates_S50000x128_S50000x128_S50000x256_d1 (ix2 n (⟨128 + k.val, by omega⟩ : Fin 256))
      = g1 (ix2 n k) := by
  refine concatenate_apply_piece (1 : Fin S50000x256.rank) _ _ _ 1 (by simp) S50000x128 g1 rfl rfl 128 rfl (ix2 n k)
    (fun b => ?_) ?_
  · match b with
    | ⟨0, _⟩ => intro _; rfl
    | ⟨1, _⟩ => intro hb; exact absurd rfl hb
  · show 128 + k.val = 128 + k.val
    rfl

end Joins

/-- The reference's edge result at edge `e`, feature `j`. -/
theorem edge_apply (x0 : FVec Ideal S50000x128 .f32) (x1 : IVec S2x640000 32) (x2 : FVec Ideal S640000x128 .f32)
    (x3 : FVec Ideal S384x128 .f32) (x4 : FVec Ideal S128 .f32) (x5 : FVec Ideal S128x128 .f32) (x6 : FVec Ideal S128 .f32)
    (e : Fin 640000) (j : Fin 128) :
    val_main_v27 (F := Ideal) x0 x1 x2 x3 x4 x5 x6 (ix2 e j)
      = Cert.Mlp.outL
          (Cert.Mlp.hid3 (fun k => val_main_v10 (F := Ideal) x0 x1 (ix2 e k)) (fun k => val_main_v17 (F := Ideal) x0 x1 (ix2 e k))
            (fun k => x2 (ix2 e k))
            (fun k h => x3 (ix2 (⟨k.val, by omega⟩ : Fin 384) h)) (fun k h => x3 (ix2 (⟨128 + k.val, by omega⟩ : Fin 384) h))
            (fun k h => x3 (ix2 (⟨256 + k.val, by omega⟩ : Fin 384) h)) (fun h => x4 (ix1 h)))
          (fun h q => x5 (ix2 h q)) (fun q => x6 (ix1 q)) j := by
  rw [val_main_v27_apply, val_main_v24_apply, val_main_v26_apply, val_main_v25_apply]
  unfold Cert.Mlp.outL
  -- the output unit: term by term over the hidden units, then the bias
  refine congrArg₂ (· + ·) (Finset.sum_congr rfl fun h _ => ?_) ?_
  · have hl : lidx_main_v24 (ix2 e j) h = ix2 e h := funext fun a => match a with
      | ⟨0, _⟩ => rfl
      | ⟨1, _⟩ => rfl
    have hr : ridx_main_v24 (ix2 e j) h = ix2 h j := funext fun a => match a with
      | ⟨0, _⟩ => rfl
      | ⟨1, _⟩ => rfl
    rw [hl, hr, val_main_v23_apply, val_main_call0_v0_apply, val_main_call0_cst_apply, val_main_v22_apply,
      val_main_v21_apply, val_main_v20_apply, val_main_v19_apply]
    -- under the rectifier: hidden unit h is the sum over the joined width 384 plus the bias
    refine congrArg (fun t : EReal => max t Cert.Mlp.zf * x5 (ix2 h j)) ?_
    unfold Cert.Mlp.hid3
    refine congrArg₂ (· + ·) ?_ (congrArg x4 (funext fun a => match a with | ⟨0, _⟩ => rfl))
    -- split the sum at the two joins; each third of the joined row is one of the three rows
    rw [Cert.Mlp.sum384]
    have hL : ∀ k : Fin 384, lidx_main_v19 (ix2 e h) k = ix2 e k := fun k => funext fun a => match a with
      | ⟨0, _⟩ => rfl
      | ⟨1, _⟩ => rfl
    have hR : ∀ k : Fin 384, ridx_main_v19 (ix2 e h) k = ix2 k h := fun k => funext fun a => match a with
      | ⟨0, _⟩ => rfl
      | ⟨1, _⟩ => rfl
    simp only [hL, hR]
    unfold val_main_v18
    generalize val_main_v10 (F := Ideal) x0 x1 = g0
    generalize val_main_v17 (F := Ideal) x0 x1 = g1
    simp only [cat3_fst, cat3_snd, cat3_thd]
  · exact congrArg x6 (funext fun a => match a with | ⟨0, _⟩ => rfl)

/-- The reference's node result at node `n`, feature `j`. -/
theorem node_apply (x0 : FVec Ideal S50000x128 .f32) (x1 : IVec S2x640000 32) (x2 : FVec Ideal S640000x128 .f32)
    (x3 : FVec Ideal S384x128 .f32) (x4 : FVec Ideal S128 .f32) (x5 : FVec Ideal S128x128 .f32) (x6 : FVec Ideal S128 .f32)
    (x7 : FVec Ideal S256x128 .f32) (x8 : FVec Ideal S128 .f32) (x9 : FVec Ideal S128x128 .f32) (x10 : FVec Ideal S128 .f32)
    (n : Fin 50000) (j : Fin 128) :
    val_main_v48 (F := Ideal) x0 x1 x2 x3 x4 x5 x6 x7 x8 x9 x10 (ix2 n j)
      = Cert.Mlp.outL
          (Cert.Mlp.hid2 (fun k => x0 (ix2 n k)) (fun k => val_main_v38 (F := Ideal) x0 x1 x2 x3 x4 x5 x6 (ix2 n k))
            (fun k h => x7 (ix2 (⟨k.val, by omega⟩ : Fin 256) h)) (fun k h => x7 (ix2 (⟨128 + k.val, by omega⟩ : Fin 256) h))
            (fun h => x8 (ix1 h)))
          (fun h q => x9 (ix2 h q)) (fun q => x10 (ix1 q)) j := by
  rw [val_main_v48_apply, val_main_v45_apply, val_main_v47_apply, val_main_v46_apply]
  unfold Cert.Mlp.outL
  -- the output unit: term by term over the hidden units, then the bias
  refine congrArg₂ (· + ·) (Finset.sum_congr rfl fun h _ => ?_) ?_
  · have hl : lidx_main_v45 (ix2 n j) h = ix2 n h := funext fun a => match a with
      | ⟨0, _⟩ => rfl
      | ⟨1, _⟩ => rfl
    have hr : ridx_main_v45 (ix2 n j) h = ix2 h j := funext fun a => match a with
      | ⟨0, _⟩ => rfl
      | ⟨1, _⟩ => rfl
    rw [hl, hr, val_main_v44_apply, val_main_call1_v0_apply, val_main_call1_cst_apply, val_main_v43_apply,
      val_main_v42_apply, val_main_v41_apply, val_main_v40_apply]
    -- under the rectifier: hidden unit h is the sum over the joined width 256 plus the bias
    refine congrArg (fun t : EReal => max t Cert.Mlp.zf * x9 (ix2 h j)) ?_
    unfold Cert.Mlp.hid2
    refine congrArg₂ (· + ·) ?_ (congrArg x8 (funext fun a => match a with | ⟨0, _⟩ => rfl))
    -- split the sum at the join; each half of the joined row is one of the two rows
    rw [Cert.Mlp.sum256]
    have hL : ∀ k : Fin 256, lidx_main_v40 (ix2 n h) k = ix2 n k := fun k => funext fun a => match a with
      | ⟨0, _⟩ => rfl
      | ⟨1, _⟩ => rfl
    have hR : ∀ k : Fin 256, ridx_main_v40 (ix2 n h) k = ix2 k h := fun k => funext fun a => match a with
      | ⟨0, _⟩ => rfl
      | ⟨1, _⟩ => rfl
    simp only [hL, hR]
    unfold val_main_v39
    generalize val_main_v38 (F := Ideal) x0 x1 x2 x3 x4 x5 x6 = g1
    simp only [cat2_fst, cat2_snd]
  · exact congrArg x10 (funext fun a => match a with | ⟨0, _⟩ => rfl)

end Cert.ReferenceIdeal.Elementwise

end
-- ==== Proof.Bridge.lean ====
/-
  The two programs compute one function.
  Under the precondition the kernel's taken rows are the reference's gathered rows. The kernel's edge model takes the
  three row-blocks of the first weight matrix where the reference multiplies the joined row by the whole matrix:
  element by element both are the perceptron's output unit (the sum over the joined width split at the joins). The
  scatter-mean is the same host computation in both programs, applied to equal edge results; and the node model is
  the edge model's argument over again with two row-blocks.
-/
import proofs.«417618_j1589137899997_1_alg».proof.Defs
import proofs.«417618_j1589137899997_1_alg».proof.Proof.KValue
import proofs.«417618_j1589137899997_1_alg».proof.Proof.RefSide
import proofs.«417618_j1589137899997_1_alg».proof.Proof.Gen.ReferenceIdeal.Read
import Idealize.ShloMosaic.Lib.Pipeline.Value
import Idealize.ShloMosaic.Lib.ValueIdx

set_option maxRecDepth 16384

noncomputable section

namespace Cert.Bridge

open Cert.KernelIdeal Cert.KernelIdeal.Gen
open Idealize.ShloMosaic Idealize.ShloMosaic.TcCoe Idealize.SL.Sem Idealize.ShloMosaic.ValueIdx

/-! ## The shared pieces are the same terms -/

/-- The rows of x at the source nodes: the kernel's plain gather is the reference's. -/
theorem gather_src (x0 : FVec Ideal S50000x128 .f32) (x1 : IVec S2x640000 32) :
    Take.gatherRows x0 (Take.srcRow x1) = Cert.ReferenceIdeal.Read.val_main_v10 (F := Ideal) x0 x1 := rfl

/-- The rows of x at the destination nodes. -/
theorem gather_dst (x0 : FVec Ideal S50000x128 .f32) (x1 : IVec S2x640000 32) :
    Take.gatherRows x0 (Take.dstRow x1) = Cert.ReferenceIdeal.Read.val_main_v17 (F := Ideal) x0 x1 := rfl

/-- Row-block `o … o + 127` of a weight matrix of 384 rows, read at (k, h). -/
theorem rows384 (x3 : FVec Ideal S384x128 .f32) (o : Nat) (ho : o + 128 ≤ 384) (hs : S384x128.Slices ![o, 0] S128x128) (k h : Fin 128) :
    extractStridedSlice S128x128 ![o, 0] x3 hs (ix2 k h) = x3 (ix2 (⟨o + k.val, by omega⟩ : Fin 384) h) :=
  extractStridedSlice_apply _ x3 hs (ix2 k h) _ (fun a => by
    match a with
    | ⟨0, _⟩ => rfl
    | ⟨1, _⟩ => exact (Nat.zero_add _).symm)

/-- Row-block `o … o + 127` of a weight matrix of 256 rows, read at (k, h). -/
theorem rows256 (x7 : FVec Ideal S256x128 .f32) (o : Nat) (ho : o + 128 ≤ 256) (hs : S256x128.Slices ![o, 0] S128x128) (k h : Fin 128) :
    extractStridedSlice S128x128 ![o, 0] x7 hs (ix2 k h) = x7 (ix2 (⟨o + k.val, by omega⟩ : Fin 256) h) :=
  extractStridedSlice_apply _ x7 hs (ix2 k h) _ (fun a => by
    match a with
    | ⟨0, _⟩ => rfl
    | ⟨1, _⟩ => exact (Nat.zero_add _).symm)

/-! ## The edge result -/

theorem edge_bridge (x0 : FVec Ideal S50000x128 .f32) (x1 : IVec S2x640000 32) (x2 : FVec Ideal S640000x128 .f32)
    (x3 : FVec Ideal S384x128 .f32) (x4 : FVec Ideal S128 .f32) (x5 : FVec Ideal S128x128 .f32) (x6 : FVec Ideal S128 .f32) :
    Edge.edgeArr (Take.gatherRows x0 (Take.srcRow x1)) (Take.gatherRows x0 (Take.dstRow x1)) x2
      (extractStridedSlice S128x128 ![0, 0] x3 slices_S384x128_S128x128_0_0)
      (extractStridedSlice S128x128 ![128, 0] x3 slices_S384x128_S128x128_128_0)
      (extractStridedSlice S128x128 ![256, 0] x3 slices_S384x128_S128x128_256_0) x4 x5 x6
    = Cert.ReferenceIdeal.Read.val_main_v27 (F := Ideal) x0 x1 x2 x3 x4 x5 x6 := by
  funext i
  obtain ⟨e, j, rfl⟩ : ∃ (e : Fin 640000) (j : Fin 128), i = ix2 e j := ⟨i 0, i 1, eq_ix2 i⟩
  rw [Cert.ReferenceIdeal.Elementwise.edge_apply, ← gather_src, ← gather_dst]
  unfold Edge.edgeArr
  simp only [rows384 x3 0 (by omega), rows384 x3 128 (by omega), rows384 x3 256 (by omega), Nat.zero_add]

/-! ## The scatter-mean and the node result -/

theorem mean_bridge (x0 : FVec Ideal S50000x128 .f32) (x1 : IVec S2x640000 32) (x2 : FVec Ideal S640000x128 .f32)
    (x3 : FVec Ideal S384x128 .f32) (x4 : FVec Ideal S128 .f32) (x5 : FVec Ideal S128x128 .f32) (x6 : FVec Ideal S128 .f32) :
    Whole.meanOf (Cert.ReferenceIdeal.Read.val_main_v27 (F := Ideal) x0 x1 x2 x3 x4 x5 x6) (Take.srcRow x1)
      = Cert.ReferenceIdeal.Read.val_main_v38 (F := Ideal) x0 x1 x2 x3 x4 x5 x6 := rfl

theorem node_bridge (x0 : FVec Ideal S50000x128 .f32) (x1 : IVec S2x640000 32) (x2 : FVec Ideal S640000x128 .f32)
    (x3 : FVec Ideal S384x128 .f32) (x4 : FVec Ideal S128 .f32) (x5 : FVec Ideal S128x128 .f32) (x6 : FVec Ideal S128 .f32)
    (x7 : FVec Ideal S256x128 .f32) (x8 : FVec Ideal S128 .f32) (x9 : FVec Ideal S128x128 .f32) (x10 : FVec Ideal S128 .f32) :
    Node.nodeArr x0 (Cert.ReferenceIdeal.Read.val_main_v38 (F := Ideal) x0 x1 x2 x3 x4 x5 x6)
      (extractStridedSlice S128x128 ![0, 0] x7 slices_S256x128_S128x128_0_0)
      (extractStridedSlice S128x128 ![128, 0] x7 slices_S256x128_S128x128_128_0) x8 x9 x10
    = Cert.ReferenceIdeal.Read.val_main_v48 (F := Ideal) x0 x1 x2 x3 x4 x5 x6 x7 x8 x9 x10 := by
  funext i
  obtain ⟨n, j, rfl⟩ : ∃ (n : Fin 50000) (j : Fin 128), i = ix2 n j := ⟨i 0, i 1, eq_ix2 i⟩
  rw [Cert.ReferenceIdeal.Elementwise.node_apply]
  unfold Node.nodeArr
  simp only [rows256 x7 0 (by omega), rows256 x7 128 (by omega), Nat.zero_add]

/-! ## The kernel program's results are the reference's stages of the same arguments -/

variable (m : (ℓ : Loc nD τ sig) → Buf (Elt Ideal) ℓ)

theorem edgeOut_eq (hpre : Cert.Pre_KernelIdeal m) (c : Dev nD) :
    Whole.edgeOut m c = Cert.ReferenceIdeal.Read.val_main_v27 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Whole.edgeOut
  rw [Take.takeRows_eq _ _ (Take.srcRow_in_range _ (Take.idx_in_range m hpre c)),
    Take.takeRows_eq _ _ (Take.dstRow_in_range _ (Take.idx_in_range m hpre c))]
  exact edge_bridge _ _ _ _ _ _ _

theorem nodeOut_eq (hpre : Cert.Pre_KernelIdeal m) (c : Dev nD) :
    Whole.nodeOut m c = Cert.ReferenceIdeal.Read.val_main_v48 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9))
      (m ((c.tc : Thread nD τ).loc main_arg10)) := by
  unfold Whole.nodeOut
  rw [edgeOut_eq m hpre c, mean_bridge]
  exact node_bridge _ _ _ _ _ _ _ _ _ _ _

end Cert.Bridge

end
-- ==== Proof.lean ====
/-
  The certificate: a two-kernel graph-network layer against its jnp reference, over the extended reals.
  The kernel program gathers the rows of x at the two ends of every edge on the host, runs a two-layer perceptron over
  [x[row], x[col], edge_attr] in one pallas_call (the first weight matrix cut into three row-blocks, three matrix
  products added), sums the edge results into their source nodes and divides by the in-degree on the host, and runs
  a second perceptron over [x, mean] in a second pallas_call (two row-blocks). The reference joins the rows and
  multiplies by the whole matrices. The two agree element by element: a sum over the joined width is the sum of the
  parts' sums, and nothing else is used of the extended reals. The precondition says every float input is finite
  (not used) and every entry of edge_index is a node index in [0, 50000): the kernel's fill-mode take is then the
  plain gather the reference performs.
  The three frames: the two kernel programs' by their generated frame certificates; the reference's is its run with
  the results dropped. `preserves` has no entry.
-/
import proofs.«417618_j1589137899997_1_alg».proof.Defs
import proofs.«417618_j1589137899997_1_alg».proof.Proof.Gen.Kernel
import proofs.«417618_j1589137899997_1_alg».proof.Proof.Gen.Kernel.Frame
import proofs.«417618_j1589137899997_1_alg».proof.Proof.Gen.KernelIdeal
import proofs.«417618_j1589137899997_1_alg».proof.Proof.Gen.KernelIdeal.Frame
import proofs.«417618_j1589137899997_1_alg».proof.Proof.Gen.ReferenceIdeal
import proofs.«417618_j1589137899997_1_alg».proof.Proof.Gen.ReferenceIdeal.Run
import proofs.«417618_j1589137899997_1_alg».proof.Proof.Gen.ReferenceIdeal.Read
import proofs.«417618_j1589137899997_1_alg».proof.Proof.Gen.Pre_finite_inputs
import proofs.«417618_j1589137899997_1_alg».proof.Proof.KValue
import proofs.«417618_j1589137899997_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the node result at the reference's last stage and the edge result at its edge stage, read
    at the kernel program's arguments: the kernel program by its run and the bridge, the reference by its run and the
    agreement of the two memories on the arguments. -/
theorem algebraic : Cert.algebraic_KernelIdeal_ReferenceIdeal := by
  intro m ρ m' ρ' hpre hagree
  refine ⟨fun c => Cert.KernelIdeal.Whole.nodeOut m c, fun c => Cert.KernelIdeal.Whole.edgeOut m c,
    Cert.KernelIdeal.Whole.run m ρ, ?_⟩
  refine (θ_run Cert.ReferenceIdeal.defs _ _).mono (fun r h c => ?_) (Cert.ReferenceIdeal.Value.run (F := Ideal) m' ρ')
  obtain ⟨h48, h27, hargs⟩ := h c
  obtain ⟨e0, e1, e2, e3, e4, e5, e6, e7, e8, e9, e10⟩ := hagree c
  refine ⟨h48.trans ?_, h27.trans ?_, hargs⟩
  · rw [Cert.ReferenceIdeal.Read.val_main_v48_eq, e0, e1, e2, e3, e4, e5, e6, e7, e8, e9, e10]
    exact (Cert.Bridge.nodeOut_eq m hpre c).symm
  · refine (Cert.ReferenceIdeal.Read.val_main_v27_eq _ _ _ _ _ _ _).trans ?_
    rw [e0, e1, e2, e3, e4, e5, e6]
    exact (Cert.Bridge.edgeOut_eq m hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
